-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16x8 .f32) (main_arg6 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x8 .f32) (main_arg6 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x8 : Shape := ⟨2, ![100000, 8]⟩
abbrev S20000x16 : Shape := ⟨2, ![20000, 16]⟩
abbrev S20000x8 : Shape := ⟨2, ![20000, 8]⟩
abbrev S3300000x8 : Shape := ⟨2, ![3300000, 8]⟩
abbrev S1x8 : Shape := ⟨2, ![1, 8]⟩
abbrev S20000 : Shape := ⟨1, ![20000]⟩
abbrev S20000x1 : Shape := ⟨2, ![20000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x8, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x8, .f32⟩
  | .hbm, ⟨79, _⟩ => ⟨S3300000x8, .f32⟩
  | .hbm, ⟨80, _⟩ => ⟨S_, .f32⟩
  | .hbm, ⟨81, _⟩ => ⟨S100000x8, .f32⟩
  | .hbm, ⟨82, _⟩ => ⟨S3300000x1, .i32⟩
  | .hbm, ⟨83, _⟩ => ⟨S100000x8, .f32⟩
  | .hbm, ⟨84, _⟩ => ⟨S1x8, .f32⟩
  | .hbm, ⟨85, _⟩ => ⟨S100000x8, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S16x8, .f32⟩
  | .local _ .vmem, ⟨9, _⟩ => ⟨S20000x8, .f32⟩
  | .local _ .vmem, ⟨10, _⟩ => ⟨S20000x8, .f32⟩
  | .local _ .vmem, ⟨11, _⟩ => ⟨S20000x8, .f32⟩
  | .local _ .vmem, ⟨12, _⟩ => ⟨S20000x8, .f32⟩
  | .local _ .vmem, ⟨13, _⟩ => ⟨S1x8, .f32⟩
  | .local _ .vmem, ⟨14, _⟩ => ⟨S20000x8, .f32⟩
  | .local _ .vmem, ⟨15, _⟩ => ⟨S20000x8, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x8_S16x8_0_0 : ∀ a, (![0, 0] : Fin 2 → Nat) a + S16x8.size a ≤ S16x8.size a
  h_S16x8 : 0 < S16x8.numel
  inb_S20000x8_S20000x8_0_0 : ∀ a, (![0, 0] : Fin 2 → Nat) a + S20000x8.size a ≤ S20000x8.size a
  h_S20000x8 : 0 < S20000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S20000x8_S20000x8 : S20000x8.ShapeCasts S20000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S20000x8 : S1x8.Broadcasts S20000x8
  reduces_S20000x8_S20000 : S20000x8.Reduces [1] S20000
  shapeCasts_S20000_S20000x1 : S20000.ShapeCasts S20000x1
  broadcasts_S20000x1_S20000x8 : S20000x1.Broadcasts S20000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x8_S20000x8_1_0_0_1_n_n_wf : DotDims.WF S20000x16 S16x8 S20000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x8.size a ≤ S100000x8.size a
  hwx1_3 : ∀ i : grid1.Coords, EltTy.bits .f32 = 32 ∨ (Rect.block (s := S100000x8) S20000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x8.size a ≤ S100000x8.size a
  hwx2_0 : ∀ i : grid2.Coords, EltTy.bits .f32 = 32 ∨ (Rect.block (s := S100000x8) S20000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x8.size a ≤ S100000x8.size a
  hwx2_2 : ∀ i : grid2.Coords, EltTy.bits .f32 = 32 ∨ (Rect.block (s := S100000x8) S20000x8.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S20000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S20000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S20000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x8, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x8, .f32⟩
  | .hbm, ⟨83, _⟩ => ⟨S3300000x8, .f32⟩
  | .hbm, ⟨84, _⟩ => ⟨S3300000x8, .f32⟩
  | .hbm, ⟨85, _⟩ => ⟨S_, .f32⟩
  | .hbm, ⟨86, _⟩ => ⟨S100000x8, .f32⟩
  | .hbm, ⟨87, _⟩ => ⟨S3300000x1, .i32⟩
  | .hbm, ⟨88, _⟩ => ⟨S100000x8, .f32⟩
  | .hbm, ⟨89, _⟩ => ⟨S1x8, .f32⟩
  | .hbm, ⟨90, _⟩ => ⟨S100000x8, .f32⟩
  | .hbm, ⟨91, _⟩ => ⟨S100000x8, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x8, .f32⟩
  | .hbm, ⟨99, _⟩ => ⟨S100000x8, .f32⟩
  | .hbm, ⟨100, _⟩ => ⟨S100000x8, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x8, .f32⟩
  | .hbm, ⟨106, _⟩ => ⟨S100000x8, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.HostPreDef.lean ====
/-
  The kernel program's three host stretches before its first region (the edge lists with self-loops, the weighted
  in-degree, its inverse square root, the edge norm), as one fold over the contents the program is launched with.
  Stated for every float family.
-/
import proofs.«156561_j57312043598543_1_alg».proof.Proof.Gen.KernelIdeal.Launch
import proofs.«156561_j57312043598543_1_alg».proof.Proof.RefRead
import Idealize.ShloMosaic.Lib.StableHlo.Run

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

/-- The three stretches before the first region, as one fold. -/
abbrev pre (Wv : Valuation τ sig (Elt F)) : Valuation τ sig (Elt F) :=
  StableHlo.after hostOps0_2 (StableHlo.after hostOps0_1 (StableHlo.after hostOps0 Wv))

end Cert.KernelIdeal.HostChain

end
-- ==== Proof.HostPre.lean ====
/-
  Before the first region: the source and destination lists with the self-loops appended are the reference's stages,
  and no operation of the three stretches writes an argument array. Each side is compared as a term; nothing is
  evaluated. Stated for every float family.
-/
import proofs.«156561_j57312043598543_1_alg».proof.Proof.Gen.KernelIdeal.Launch
import proofs.«156561_j57312043598543_1_alg».proof.Proof.RefRead
import Idealize.ShloMosaic.Lib.StableHlo.Run
import proofs.«156561_j57312043598543_1_alg».proof.Proof.HostPreDef

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

set_option maxHeartbeats 4000000 in
/-- The source list with the self-loops appended. -/
theorem pre_src : pre Wv (Proc.devRef .tc main_v5) = val_main_v5 (F := F) (Wv (Proc.devRef .tc main_arg1)) := by
  unfold pre; after_results; rfl

set_option maxHeartbeats 4000000 in
/-- The destination list with the self-loops appended. -/
theorem pre_dst : pre Wv (Proc.devRef .tc main_v6) = val_main_v6 (F := F) (Wv (Proc.devRef .tc main_arg1)) := by
  unfold pre; after_results; rfl

set_option maxHeartbeats 4000000 in
theorem pre_arg0 : pre Wv (Proc.devRef .tc main_arg0) = Wv (Proc.devRef .tc main_arg0) := by unfold pre; after_results
set_option maxHeartbeats 4000000 in
theorem pre_arg3 : pre Wv (Proc.devRef .tc main_arg3) = Wv (Proc.devRef .tc main_arg3) := by unfold pre; after_results
set_option maxHeartbeats 4000000 in
theorem pre_arg4 : pre Wv (Proc.devRef .tc main_arg4) = Wv (Proc.devRef .tc main_arg4) := by unfold pre; after_results
set_option maxHeartbeats 4000000 in
theorem pre_arg5 : pre Wv (Proc.devRef .tc main_arg5) = Wv (Proc.devRef .tc main_arg5) := by unfold pre; after_results
set_option maxHeartbeats 4000000 in
theorem pre_arg6 : pre Wv (Proc.devRef .tc main_arg6) = Wv (Proc.devRef .tc main_arg6) := by unfold pre; after_results

end Cert.KernelIdeal.HostChain

end
-- ==== Proof.HostPreNorm.lean ====
/-
  Before the first region: the edge norm d(src) · w · d(dst), with d the inverse square root of the weighted
  in-degree where that is positive and zero elsewhere, is the reference's stage: the same scatter-add, comparison,
  inverse square root, select and two gathers in the same order, compared as terms. Stated for every float family.
-/
import proofs.«156561_j57312043598543_1_alg».proof.Proof.Gen.KernelIdeal.Launch
import proofs.«156561_j57312043598543_1_alg».proof.Proof.RefRead
import Idealize.ShloMosaic.Lib.StableHlo.Run
import proofs.«156561_j57312043598543_1_alg».proof.Proof.HostPreDef

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

set_option maxHeartbeats 4000000 in
/-- The edge norm d(src) · w · d(dst). -/
theorem pre_norm : pre Wv (Proc.devRef .tc main_v31)
    = val_main_v31 (F := F) (Wv (Proc.devRef .tc main_arg1)) (Wv (Proc.devRef .tc main_arg2)) := by
  unfold pre; after_results; rfl

end Cert.KernelIdeal.HostChain

end
-- ==== Proof.HostMid1.lean ====
/-
  Between the first and the second region: gather the product's source rows, scale by the edge norm, scatter-add
  into the destination rows. When the buffers the stretch reads hold the reference's stages, the aggregate is the
  reference's first scatter-add, by unfolding the stage definitions; the bias is laid out as one row; a buffer no
  operation of the stretch writes keeps its contents. Stated for every float family.
-/
import proofs.«156561_j57312043598543_1_alg».proof.Proof.Gen.KernelIdeal.Launch
import proofs.«156561_j57312043598543_1_alg».proof.Proof.RefRead
import Idealize.ShloMosaic.Lib.StableHlo.Run

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

set_option maxHeartbeats 4000000 in
/-- Gather the product's source rows, scale by the norm, scatter-add into the destination rows. -/
theorem mid1_agg (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x16, .f32⟩ : BufTy).Contents (Elt F))
    (h5 : Wv (Proc.devRef .tc main_v5) = val_main_v5 (F := F) x1) (h6 : Wv (Proc.devRef .tc main_v6) = val_main_v6 (F := F) x1)
    (h31 : Wv (Proc.devRef .tc main_v31) = val_main_v31 (F := F) x1 x2)
    (h32 : Wv (Proc.devRef .tc main_v32) = val_main_v32 (F := F) x0 x3) :
    StableHlo.after hostOps1 Wv (Proc.devRef .tc main_v45) = val_main_v45 (F := F) x0 x1 x2 x3 := by
  after_results
  rw [h5, h6, h31, h32]
  rfl

set_option maxHeartbeats 4000000 in
/-- The first bias as a one-row array. -/
theorem mid1_bias : StableHlo.after hostOps1 Wv (Proc.devRef .tc main_v46)
    = shapeCast S1x16 (Wv (Proc.devRef .tc main_arg4)) shapeCasts_S16_S1x16 := by
  after_results; rfl

set_option maxHeartbeats 4000000 in
theorem mid1_src : StableHlo.after hostOps1 Wv (Proc.devRef .tc main_v5) = Wv (Proc.devRef .tc main_v5) := by after_results
set_option maxHeartbeats 4000000 in
theorem mid1_dst : StableHlo.after hostOps1 Wv (Proc.devRef .tc main_v6) = Wv (Proc.devRef .tc main_v6) := by after_results
set_option maxHeartbeats 4000000 in
theorem mid1_norm : StableHlo.after hostOps1 Wv (Proc.devRef .tc main_v31) = Wv (Proc.devRef .tc main_v31) := by after_results
set_option maxHeartbeats 4000000 in
theorem mid1_arg5 : StableHlo.after hostOps1 Wv (Proc.devRef .tc main_arg5) = Wv (Proc.devRef .tc main_arg5) := by after_results
set_option maxHeartbeats 4000000 in
theorem mid1_arg6 : StableHlo.after hostOps1 Wv (Proc.devRef .tc main_arg6) = Wv (Proc.devRef .tc main_arg6) := by after_results

end Cert.KernelIdeal.HostChain

end
-- ==== Proof.HostMid2.lean ====
/-
  Between the second and the third region: gather the hidden layer's source rows, scale by the edge norm,
  scatter-add into the destination rows. When the buffers the stretch reads hold the reference's stages, the
  aggregate is the reference's second scatter-add; the second bias is laid out as one row. Stated for every float
  family.
-/
import proofs.«156561_j57312043598543_1_alg».proof.Proof.Gen.KernelIdeal.Launch
import proofs.«156561_j57312043598543_1_alg».proof.Proof.RefRead
import Idealize.ShloMosaic.Lib.StableHlo.Run

set_option maxRecDepth 65536

noncomputable section

namespace Cert.KernelIdeal.HostChain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (Wv : Valuation τ sig (Elt F))

set_option maxHeartbeats 4000000 in
/-- Gather the hidden layer's source rows, scale by the norm, scatter-add into the destination rows. -/
theorem mid2_agg (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x16, .f32⟩ : BufTy).Contents (Elt F))
    (x4 : (⟨S16, .f32⟩ : BufTy).Contents (Elt F)) (x5 : (⟨S16x8, .f32⟩ : BufTy).Contents (Elt F))
    (h5 : Wv (Proc.devRef .tc main_v5) = val_main_v5 (F := F) x1) (h6 : Wv (Proc.devRef .tc main_v6) = val_main_v6 (F := F) x1)
    (h31 : Wv (Proc.devRef .tc main_v31) = val_main_v31 (F := F) x1 x2)
    (h47 : Wv (Proc.devRef .tc main_v47) = val_main_v50 (F := F) x0 x1 x2 x3 x4 x5) :
    StableHlo.after hostOps2 Wv (Proc.devRef .tc main_v60) = val_main_v63 (F := F) x0 x1 x2 x3 x4 x5 := by
  after_results
  rw [h5, h6, h31, h47]
  rfl

set_option maxHeartbeats 4000000 in
/-- The second bias as a one-row array. -/
theorem mid2_bias : StableHlo.after hostOps2 Wv (Proc.devRef .tc main_v61)
    = shapeCast S1x8 (Wv (Proc.devRef .tc main_arg6)) shapeCasts_S8_S1x8 := by
  after_results; rfl

end Cert.KernelIdeal.HostChain

end
-- ==== Proof.HostChain.lean ====
/-
  The kernel program's host stretches, read against the reference's stages.
  Both programs run the SAME host operations around their dense steps: the edge lists with self-loops appended, the
  weighted in-degree and its inverse square root, the edge norm d(src)·w·d(dst), and, per layer, the gather of source
  rows, the scaling by the norm and the scatter-add into destination rows. The kernel program runs them in five
  stretches between its three kernel regions. Each lemma below takes the contents a stretch starts from as a variable
  and says what ONE buffer holds after the stretch: when the buffers it reads hold the reference's stages, the buffer
  holds the reference's next stage, by unfolding the stage definitions on both sides, and a buffer no operation of the
  stretch writes keeps its contents. No gather, scatter or sort is ever evaluated: they are compared as terms.
  Stated for every float family.
-/
import proofs.«156561_j57312043598543_1_alg».proof.Proof.HostPre
import proofs.«156561_j57312043598543_1_alg».proof.Proof.HostPreNorm
import proofs.«156561_j57312043598543_1_alg».proof.Proof.HostMid1
import proofs.«156561_j57312043598543_1_alg».proof.Proof.HostMid2
-- ==== Proof.Spec.lean ====
/-
  The mathematics both programs compute, stated once over the extended reals and over plain rank-2 arrays.

  A two-layer graph convolution ends, on its dense side, in three maps:
  * `matProd A B`: the matrix product, entry (a, b) the sum over the contracted coordinate c of A(a, c) · B(c, b);
  * `hiddenLayer H b W`: add the one-row bias b to every row of H, clamp at zero from below, multiply by W;
  * `logSoftmaxBias H b`: add the one-row bias b to every row of H and take the row-wise log-softmax in its
    shifted form, (z − m) − log Σ_j exp (z_j − m) with m the row's maximum (from −∞).
  The sparse side (degree normalisation, gather along edges, scatter-add into nodes) is the same sequence of host
  operations in both programs and is never opened.
-/
import Idealize.ShloMosaic.PureOps.Ideal
import Idealize.ShloMosaic.Lib.ValueIdx

noncomputable section

open scoped BigOperators

namespace Cert.GraphConv

open Idealize.ShloMosaic Idealize.ShloMosaic.ValueIdx

/-- The matrix product over the extended reals: entry (a, b) is Σ_c A(a, c) · B(c, b). -/
def matProd {m k n : Nat} (A : FVec Ideal ⟨2, ![m, k]⟩ .f32) (B : FVec Ideal ⟨2, ![k, n]⟩ .f32) :
    FVec Ideal ⟨2, ![m, n]⟩ .f32 :=
  fun i => ∑ c : Fin k, A (ix2 (n0 := m) (i 0) c) * B (ix2 (n1 := n) c (i 1))

theorem matProd_apply {m k n : Nat} (A : FVec Ideal ⟨2, ![m, k]⟩ .f32) (B : FVec Ideal ⟨2, ![k, n]⟩ .f32)
    (a : Fin m) (b : Fin n) : matProd A B (ix2 a b) = ∑ c : Fin k, A (ix2 a c) * B (ix2 c b) := rfl

/-- Row bias, then the positive part: entry (a, b) is max (H(a, b) + bias(0, b)) 0. -/
def biasRelu {m n : Nat} (H : FVec Ideal ⟨2, ![m, n]⟩ .f32) (bias : FVec Ideal ⟨2, ![1, n]⟩ .f32) :
    FVec Ideal ⟨2, ![m, n]⟩ .f32 :=
  fun i => max (H i + bias (ix2 (n0 := 1) (n1 := n) 0 (i 1))) 0

theorem biasRelu_apply {m n : Nat} (H : FVec Ideal ⟨2, ![m, n]⟩ .f32) (bias : FVec Ideal ⟨2, ![1, n]⟩ .f32)
    (a : Fin m) (b : Fin n) : biasRelu H bias (ix2 a b) = max (H (ix2 a b) + bias (ix2 0 b)) 0 := rfl

/-- The hidden layer: (max (H + bias) 0) · W. -/
def hiddenLayer {m k n : Nat} (H : FVec Ideal ⟨2, ![m, k]⟩ .f32) (bias : FVec Ideal ⟨2, ![1, k]⟩ .f32)
    (W : FVec Ideal ⟨2, ![k, n]⟩ .f32) : FVec Ideal ⟨2, ![m, n]⟩ .f32 :=
  matProd (biasRelu H bias) W

theorem hiddenLayer_apply {m k n : Nat} (H : FVec Ideal ⟨2, ![m, k]⟩ .f32) (bias : FVec Ideal ⟨2, ![1, k]⟩ .f32)
    (W : FVec Ideal ⟨2, ![k, n]⟩ .f32) (a : Fin m) (b : Fin n) :
    hiddenLayer H bias W (ix2 a b) = ∑ c : Fin k, max (H (ix2 a c) + bias (ix2 0 c)) 0 * W (ix2 c b) := rfl

/-- Row `a` of H + bias, as a function of the column. -/
def biasedRow {m n : Nat} (H : FVec Ideal ⟨2, ![m, n]⟩ .f32) (bias : FVec Ideal ⟨2, ![1, n]⟩ .f32) (a : Fin m) :
    Fin n → EReal := fun j => H (ix2 a j) + bias (ix2 0 j)

/-- The maximum of a row, from −∞. -/
def rowMax {n : Nat} (z : Fin n → EReal) : EReal := Finset.univ.fold max ⊥ z

/-- Row-wise log-softmax of H + bias in the shifted form: (z_b − m) − log Σ_j exp (z_j − m), m the row's maximum. -/
def logSoftmaxBias {m n : Nat} (H : FVec Ideal ⟨2, ![m, n]⟩ .f32) (bias : FVec Ideal ⟨2, ![1, n]⟩ .f32) :
    FVec Ideal ⟨2, ![m, n]⟩ .f32 :=
  fun i =>
    (biasedRow H bias (i 0) (i 1) - rowMax (biasedRow H bias (i 0)))
      - Ideal.log (∑ j : Fin n, Ideal.exp (biasedRow H bias (i 0) j - rowMax (biasedRow H bias (i 0))))

theorem logSoftmaxBias_apply {m n : Nat} (H : FVec Ideal ⟨2, ![m, n]⟩ .f32) (bias : FVec Ideal ⟨2, ![1, n]⟩ .f32)
    (a : Fin m) (b : Fin n) :
    logSoftmaxBias H bias (ix2 a b)
      = (biasedRow H bias a b - rowMax (biasedRow H bias a))
          - Ideal.log (∑ j : Fin n, Ideal.exp (biasedRow H bias a j - rowMax (biasedRow H bias a))) := rfl

end Cert.GraphConv

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Region0Value.lean ====
/-
  What the first kernel region leaves in its result array, for ANY contents `V` the region is entered from: the
  matrix product of the [100000, 512] array by the [512, 16] array.
  The grid has 25 points; point t reads rows 4000·t … 4000·t + 3999 of the left array and the whole right array,
  multiplies them (a product into the zero accumulator; the narrowing of the operands is the identity over the
  extended reals) and writes rows 4000·t … of the result. The 25 row blocks tile the result, so the array after the
  region is the product, entry by entry.
-/
import proofs.«156561_j57312043598543_1_alg».proof.Proof.Gen.KernelIdeal.Frame
import proofs.«156561_j57312043598543_1_alg».proof.Proof.Spec
import proofs.«156561_j57312043598543_1_alg».proof.Proof.LibMatmulPlain
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left operand's array as the region finds it. -/
abbrev lhsArr (c : Dev nD) : FVec Ideal ⟨2, ![100000, 512]⟩ .f32 := V c main_arg0
/-- The right operand's array as the region finds it. -/
abbrev rhsArr (c : Dev nD) : FVec Ideal ⟨2, ![512, 16]⟩ .f32 := V c main_arg3

theorem hz : (![0, 0] : Fin 2 → Nat) = fun _ => 0 := funext fun a => by fin_cases a <;> rfl

/-- The body's stored value at entry (a, b) of the block: Σ_c x0(a, c) · x1(c, b). -/
theorem pay_apply (x0 : Vec Ideal S4000x512 .f32) (x1 : Vec Ideal S512x16 .f32) (a : Fin 4000) (b : Fin 16) :
    k0_pay1 (F := Ideal) x0 x1 (ix2 a b) = ∑ c : Fin 512, x0 (ix2 a c) * x1 (ix2 c b) := by
  unfold k0_pay1
  exact Cert.LibMatmulPlain.matmul_plain_zero_apply none _ _ a b

/-- The printed index maps over the grid: the left and result windows move down the rows with the point, the
    right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 4000·t … of the left array. -/
theorem lhs_blk (c : Dev nD) (t : Fin cfg0.N) (a : Fin 4000) (k : Fin 512) (r : Fin 100000)
    (hr : r.val = 4000 * t.val + a.val) :
    (iblk0 V c 0 t : Vec Ideal S4000x512 .f32) (ix2 a k) = lhsArr V c (ix2 r k) := by
  obtain ⟨e0, e1, -, -, -, -⟩ := idx_facts t
  unfold iblk0
  rw [View.read_apply]
  show V c main_arg0 _ = V c main_arg0 _
  congr 1
  funext ax
  apply Fin.ext
  match ax with
  | ⟨0, _⟩ => show win0_0.index t (0 : Fin 2) * 4000 + 1 * a.val = r.val; omega
  | ⟨1, _⟩ => show win0_0.index t (1 : Fin 2) * 512 + 1 * k.val = k.val; omega

/-- The right window's block at every point is the whole right array. -/
theorem rhs_blk (c : Dev nD) (t : Fin cfg0.N) (k : Fin 512) (b : Fin 16) :
    (iblk0 V c 1 t : Vec Ideal S512x16 .f32) (ix2 k b) = rhsArr V c (ix2 k b) := by
  obtain ⟨-, -, e2, e3, -, -⟩ := idx_facts t
  unfold iblk0
  rw [View.read_apply]
  show V c main_arg3 _ = V c main_arg3 _
  congr 1
  funext ax
  apply Fin.ext
  match ax with
  | ⟨0, _⟩ => show win0_1.index t (0 : Fin 2) * 512 + 1 * k.val = k.val; omega
  | ⟨1, _⟩ => show win0_1.index t (1 : Fin 2) * 16 + 1 * b.val = b.val; omega

/-- What point t writes back is block t of the product of the two arrays. -/
theorem flushed_eq (c : Dev nD) (t : Fin cfg0.N) :
    (dat0 V c).flushed 2 t = ((cfg0.win 2).blk t).view.read (Elt Ideal) (matProd (lhsArr V c) (rhsArr V c)) := by
  obtain ⟨-, -, -, -, e4, e5⟩ := idx_facts t
  have ht : t.val < 25 := by have h1 := t.isLt; have hN : cfg0.N = 25 := N_0; omega
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  funext j
  obtain ⟨a, b, rfl⟩ : ∃ (a : Fin 4000) (b : Fin 16), j = ix2 a b := ⟨j 0, j 1, eq_ix2 j⟩
  refine (pay_apply _ _ a b).trans ?_
  rw [View.read_apply]
  have hrow : 4000 * t.val + a.val < 100000 := by have := a.isLt; omega
  have hemb : ((cfg0.win 2).blk t).view.emb (ix2 a b) = ix2 (⟨4000 * t.val + a.val, hrow⟩ : Fin 100000) b := by
    funext ax
    apply Fin.ext
    match ax with
    | ⟨0, _⟩ => show win0_2.index t (0 : Fin 2) * 4000 + 1 * a.val = 4000 * t.val + a.val; omega
    | ⟨1, _⟩ => show win0_2.index t (1 : Fin 2) * 16 + 1 * b.val = b.val; omega
  rw [hemb, matProd_apply]
  refine Finset.sum_congr rfl fun k _ => ?_
  rw [lhs_blk V c t a k ⟨4000 * t.val + a.val, hrow⟩ rfl, rhs_blk V c t k b]

/-- An index of the result array is in point t's block iff each coordinate is in the block's range. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v32).slice (win0_2.rect t)).set ↔ _
  rw [View.set_slice_whole, Rect.mem_set_unit]
  exact Iff.rfl

/-- The array after the region: the product of the two arrays the region was entered with. -/
theorem final (c : Dev nD) : (dat0 V c).arrAt 2 cfg0.N = matProd (lhsArr V c) (rhsArr V c) :=
  (dat0 V c).arrAt_eq_of_cover 2 (matProd (lhsArr V c) (rhsArr V c)) (fun t _ => flushed_eq V c t) fun i => by
    have hi0 : (i 0).val < 100000 := (i 0).isLt
    have hi1 : (i 1).val < 16 := (i 1).isLt
    have hN : cfg0.N = 25 := N_0
    refine ⟨⟨(i 0).val / 4000, by rw [hN]; omega⟩, flush0_2 _, ?_⟩
    rw [mem_blk]
    obtain ⟨-, -, -, -, e4, e5⟩ := idx_facts ⟨(i 0).val / 4000, by rw [hN]; omega⟩
    intro a
    match a with
    | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
    | ⟨1, _⟩ => show win0_2.index _ (1 : Fin 2) * 16 ≤ (i 1).val ∧ (i 1).val < win0_2.index _ (1 : Fin 2) * 16 + 16; rw [e5]; omega

end Cert.KernelIdeal.Region0

end
-- ==== Proof.Region1Value.lean ====
/-
  What the second kernel region leaves in its result array, for ANY contents `V` the region is entered from: the
  hidden layer of the [100000, 16] array, the [1, 16] bias row and the [16, 8] weight array.
  The grid has 5 points; point t reads rows 20000·t … 20000·t + 19999 of the left array, the whole bias row and the
  whole weight array; it adds the bias row to every row of its block, takes the maximum with zero entry by entry,
  multiplies the result by the weights (a product into the zero accumulator; the narrowing of the operands is the
  identity over the extended reals) and writes rows 20000·t … of the result. The 5 row blocks tile the result, so the
  array after the region is the hidden layer, entry by entry.
-/
import proofs.«156561_j57312043598543_1_alg».proof.Proof.Gen.KernelIdeal.Frame
import proofs.«156561_j57312043598543_1_alg».proof.Proof.Spec
import proofs.«156561_j57312043598543_1_alg».proof.Proof.LibMatmulPlain
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The left array (the layer's input) as the region finds it. -/
abbrev inArr (c : Dev nD) : FVec Ideal ⟨2, ![100000, 16]⟩ .f32 := V c main_v45
/-- The one-row bias array as the region finds it. -/
abbrev biasArr (c : Dev nD) : FVec Ideal ⟨2, ![1, 16]⟩ .f32 := V c main_v46
/-- The weight array as the region finds it. -/
abbrev wArr (c : Dev nD) : FVec Ideal ⟨2, ![16, 8]⟩ .f32 := V c main_arg5

theorem hz : (![0, 0] : Fin 2 → Nat) = fun _ => 0 := funext fun a => by fin_cases a <;> rfl

/-- The scalar the clamp compares against is zero. -/
theorem zero_scalar : (Scalar.ofBits .f32 0x00000000#32 : Ideal .f32) = 0 := Ideal.ofBits_zero_f32

/-- The left factor of the body's product at entry (a, k): max (x0(a, k) + x1(0, k)) 0. -/
theorem lhs_apply (x0 : Vec Ideal S20000x16 .f32) (x1 : Vec Ideal S1x16 .f32) (a : Fin 20000) (k : Fin 16) :
    (truncf .bf16
        (maximumf
          (addf (shapeCast S20000x16 x0 shapeCasts_S20000x16_S20000x16)
            (broadcastTo S20000x16 (shapeCast S1x16 x1 shapeCasts_S1x16_S1x16) broadcasts_S1x16_S20000x16))
          (broadcast S20000x16 (Scalar.ofBits .f32 0x00000000#32 : Ideal .f32)))
        bitsLt_bf16_f32 : FVec Ideal S20000x16 .bf16) (ix2 a k)
      = max (x0 (ix2 a k) + x1 (ix2 0 k)) 0 := by
  rw [truncf_apply, maximumf_apply, addf_apply, broadcast_apply, zero_scalar, shapeCast_self, shapeCast_self,
    Cert.LibMatmulPlain.rowBroadcast_apply]

/-- The body's stored value at entry (a, b) of the block: Σ_k max (x0(a, k) + x1(0, k)) 0 · x2(k, b). -/
theorem pay_apply (x0 : Vec Ideal S20000x16 .f32) (x1 : Vec Ideal S1x16 .f32) (x2 : Vec Ideal S16x8 .f32)
    (a : Fin 20000) (b : Fin 8) :
    k1_pay1 (F := Ideal) x0 x1 x2 (ix2 a b)
      = ∑ k : Fin 16, max (x0 (ix2 a k) + x1 (ix2 0 k)) 0 * x2 (ix2 k b) := by
  unfold k1_pay1
  refine (Cert.LibMatmulPlain.matmul_plain_zero_apply none _ _ a b).trans ?_
  refine Finset.sum_congr rfl fun k _ => ?_
  rw [lhs_apply x0 x1 a k, truncf_apply]

/-- The printed index maps over the grid: the left and result windows move down the rows with the point, the bias
    and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left window's block at point t is rows 20000·t … of the left array. -/
theorem in_blk (c : Dev nD) (t : Fin cfg1.N) (a : Fin 20000) (k : Fin 16) (r : Fin 100000)
    (hr : r.val = 20000 * t.val + a.val) :
    (iblk1 V c 0 t : Vec Ideal S20000x16 .f32) (ix2 a k) = inArr V c (ix2 r k) := by
  obtain ⟨e0, e1, -, -, -, -, -, -⟩ := idx_facts t
  unfold iblk1
  rw [View.read_apply]
  show V c main_v45 _ = V c main_v45 _
  congr 1
  funext ax
  apply Fin.ext
  match ax with
  | ⟨0, _⟩ => show win1_0.index t (0 : Fin 2) * 20000 + 1 * a.val = r.val; omega
  | ⟨1, _⟩ => show win1_0.index t (1 : Fin 2) * 16 + 1 * k.val = k.val; omega

/-- The bias window's block at every point is the whole bias row. -/
theorem bias_blk (c : Dev nD) (t : Fin cfg1.N) (z : Fin 1) (k : Fin 16) :
    (iblk1 V c 1 t : Vec Ideal S1x16 .f32) (ix2 z k) = biasArr V c (ix2 z k) := by
  obtain ⟨-, -, e2, e3, -, -, -, -⟩ := idx_facts t
  unfold iblk1
  rw [View.read_apply]
  show V c main_v46 _ = V c main_v46 _
  congr 1
  funext ax
  apply Fin.ext
  match ax with
  | ⟨0, _⟩ => show win1_1.index t (0 : Fin 2) * 1 + 1 * z.val = z.val; omega
  | ⟨1, _⟩ => show win1_1.index t (1 : Fin 2) * 16 + 1 * k.val = k.val; omega

/-- The weight window's block at every point is the whole weight array. -/
theorem w_blk (c : Dev nD) (t : Fin cfg1.N) (k : Fin 16) (b : Fin 8) :
    (iblk1 V c 2 t : Vec Ideal S16x8 .f32) (ix2 k b) = wArr V c (ix2 k b) := by
  obtain ⟨-, -, -, -, e4, e5, -, -⟩ := idx_facts t
  unfold iblk1
  rw [View.read_apply]
  show V c main_arg5 _ = V c main_arg5 _
  congr 1
  funext ax
  apply Fin.ext
  match ax with
  | ⟨0, _⟩ => show win1_2.index t (0 : Fin 2) * 16 + 1 * k.val = k.val; omega
  | ⟨1, _⟩ => show win1_2.index t (1 : Fin 2) * 8 + 1 * b.val = b.val; omega

/-- What point t writes back is block t of the hidden layer of the three arrays. -/
theorem flushed_eq (c : Dev nD) (t : Fin cfg1.N) :
    (dat1 V c).flushed 3 t
      = ((cfg1.win 3).blk t).view.read (Elt Ideal) (hiddenLayer (inArr V c) (biasArr V c) (wArr V c)) := by
  obtain ⟨-, -, -, -, -, -, e6, e7⟩ := idx_facts t
  have ht : t.val < 5 := by have h1 := t.isLt; have hN : cfg1.N = 5 := N_1; omega
  show (cfg1.win 3).cut (grid1.coords t) ((dat1 V c).after 3 t) = _
  rw [after1_3]
  unfold out1_3
  rw [View.canon_unit_zero hz]
  simp only [View.ld_unit_zero (S := S20000x16) hz, View.ld_unit_zero (S := S1x16) hz,
    View.ld_unit_zero (S := S16x8) hz]
  funext j
  obtain ⟨a, b, rfl⟩ : ∃ (a : Fin 20000) (b : Fin 8), j = ix2 a b := ⟨j 0, j 1, eq_ix2 j⟩
  refine (pay_apply _ _ _ a b).trans ?_
  rw [View.read_apply]
  have hrow : 20000 * t.val + a.val < 100000 := by have := a.isLt; omega
  have hemb : ((cfg1.win 3).blk t).view.emb (ix2 a b) = ix2 (⟨20000 * t.val + a.val, hrow⟩ : Fin 100000) b := by
    funext ax
    apply Fin.ext
    match ax with
    | ⟨0, _⟩ => show win1_3.index t (0 : Fin 2) * 20000 + 1 * a.val = 20000 * t.val + a.val; omega
    | ⟨1, _⟩ => show win1_3.index t (1 : Fin 2) * 8 + 1 * b.val = b.val; omega
  rw [hemb, hiddenLayer_apply]
  refine Finset.sum_congr rfl fun k _ => ?_
  rw [in_blk V c t a k ⟨20000 * t.val + a.val, hrow⟩ rfl, bias_blk V c t 0 k, w_blk V c t k b]

/-- An index of the result array is in point t's block iff each coordinate is in the block's range. -/
theorem mem_blk (t : Fin cfg1.N) (i : S100000x8.Idx) :
    i ∈ ((cfg1.win 3).blk t).view.set ↔ ∀ a : Fin 2, win1_3.index t a * S20000x8.size a ≤ (i a).val ∧ (i a).val < win1_3.index t a * S20000x8.size a + S20000x8.size a := by
  show i ∈ ((View.whole main_v47).slice (win1_3.rect t)).set ↔ _
  rw [View.set_slice_whole, Rect.mem_set_unit]
  exact Iff.rfl

/-- The array after the region: the hidden layer of the three arrays the region was entered with. -/
theorem final (c : Dev nD) : (dat1 V c).arrAt 3 cfg1.N = hiddenLayer (inArr V c) (biasArr V c) (wArr V c) :=
  (dat1 V c).arrAt_eq_of_cover 3 (hiddenLayer (inArr V c) (biasArr V c) (wArr V c)) (fun t _ => flushed_eq V c t) fun i => by
    have hi0 : (i 0).val < 100000 := (i 0).isLt
    have hi1 : (i 1).val < 8 := (i 1).isLt
    have hN : cfg1.N = 5 := N_1
    refine ⟨⟨(i 0).val / 20000, by rw [hN]; omega⟩, flush1_3 _, ?_⟩
    rw [mem_blk]
    obtain ⟨-, -, -, -, -, -, e6, e7⟩ := idx_facts ⟨(i 0).val / 20000, by rw [hN]; omega⟩
    intro a
    match a with
    | ⟨0, _⟩ => show win1_3.index _ (0 : Fin 2) * 20000 ≤ (i 0).val ∧ (i 0).val < win1_3.index _ (0 : Fin 2) * 20000 + 20000; rw [e6]; show (i 0).val / 20000 * 20000 ≤ (i 0).val ∧ (i 0).val < (i 0).val / 20000 * 20000 + 20000; omega
    | ⟨1, _⟩ => show win1_3.index _ (1 : Fin 2) * 8 ≤ (i 1).val ∧ (i 1).val < win1_3.index _ (1 : Fin 2) * 8 + 8; rw [e7]; omega

end Cert.KernelIdeal.Region1

end
-- ==== Proof.Region2Value.lean ====
/-
  What the third kernel region leaves in its result array, for ANY contents `V` the region is entered from: the
  row-wise log-softmax of the [100000, 8] array plus the one-row bias.
  The grid has 5 points; point t reads rows 20000·t … 20000·t + 19999 of the input array and the whole [1, 8] bias
  row, and writes rows 20000·t … of the result. At entry (a, b) of a block the body forms z_j = x(a, j) + bias(0, j)
  over the 8 lanes j, takes m = the maximum of the z_j from −∞, s = Σ_j exp (z_j − m), and stores (z_b − m) − log s:
  the shifted log-softmax of row a of x + bias. Every row lies whole inside one block, and the 5 row blocks tile the
  result, so the array after the region is the log-softmax of (input + bias), entry by entry.
-/
import proofs.«156561_j57312043598543_1_alg».proof.Proof.Gen.KernelIdeal.Frame
import proofs.«156561_j57312043598543_1_alg».proof.Proof.Spec
import proofs.«156561_j57312043598543_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The input array as the region finds it. -/
abbrev inArr (c : Dev nD) : FVec Ideal ⟨2, ![100000, 8]⟩ .f32 := V c main_v60
/-- The one-row bias array as the region finds it. -/
abbrev biasArr (c : Dev nD) : FVec Ideal ⟨2, ![1, 8]⟩ .f32 := V c main_v61

theorem hz : (![0, 0] : Fin 2 → Nat) = fun _ => 0 := funext fun a => by fin_cases a <;> rfl

/-! ## A column: a vector cast to one column, and a column spread over the lanes -/

section Column
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's value at an entry -/

/-- The index over row `a` of the reduced vector with lane `k` put back is `(a, k)`. -/
theorem lift_eq (h : S20000x8.Reduces [1] S20000) (a : Fin 20000) (k : Fin 8) :
    h.lift (ix1 a) k = ix2 a k := by
  funext ax
  apply Fin.ext
  match ax with
  | ⟨0, _⟩ => rfl
  | ⟨1, _⟩ => rfl

/-- The pattern of −∞ is the bottom of the extended reals. -/
theorem ofBits_negInf : FloatOps.ofBits (F := Ideal) .f32 0xFF800000#32 = (⊥ : EReal) := by
  show Ideal.ofBits .f32 0xFF800000#32 = ⊥
  simp [Ideal.ofBits, Ideal.ieee]

/-- The maximum over the lanes, from −∞, read at row `a`: the row's maximum. -/
theorem laneMax_apply (v : FVec Ideal S20000x8 .f32) (h : S20000x8.Reduces [1] S20000) (hφ) (hacc) (a : Fin 20000) :
    multiReduction (F := Ideal) .maximumf [1] S20000 v 0xFF800000#32 h hφ hacc (ix1 a) = rowMax fun j : Fin 8 => v (ix2 a j) := by
  rw [Ideal.multiReduction_maximumf_single, ofBits_negInf]
  unfold rowMax
  have hf : (v ∘ h.lift (ix1 a)) = fun j : Fin 8 => v (ix2 a j) := funext fun k => congrArg v (lift_eq h a k)
  exact congrArg (fun f : Fin 8 → EReal => Finset.fold max ⊥ f Finset.univ) hf

/-- The sum over the lanes, from zero, read at row `a`: the row's sum. -/
theorem laneSum_apply (v : FVec Ideal S20000x8 .f32) (h : S20000x8.Reduces [1] S20000) (hφ) (hacc) (a : Fin 20000) :
    multiReduction (F := Ideal) .add [1] S20000 v 0x00000000#32 h hφ hacc (ix1 a) = ∑ j : Fin 8, v (ix2 a j) := by
  rw [Ideal.multiReduction_add_single]
  exact Finset.sum_congr rfl fun k _ => congrArg v (lift_eq h a k)

/-- A per-row vector made a column and spread over the lanes reads, at (a, b), the vector at row a. -/
theorem keep_apply (w : FVec Ideal S20000 .f32) (hs : S20000.ShapeCasts S20000x1) (hb : S20000x1.Broadcasts S20000x8)
    (a : Fin 20000) (b : Fin 8) : broadcastTo S20000x8 (shapeCast S20000x1 w hs) hb (ix2 a b) = w (ix1 a) :=
  (broadcastTo_a1_ab_apply _ hb a b).trans (shapeCast_a_a1_apply w hs a 0)

/-- The same with the logarithm taken on the column. -/
theorem keep_log_apply (w : FVec Ideal S20000 .f32) (hs : S20000.ShapeCasts S20000x1) (hb : S20000x1.Broadcasts S20000x8)
    (a : Fin 20000) (b : Fin 8) :
    broadcastTo S20000x8 (log (shapeCast S20000x1 w hs)) hb (ix2 a b) = Ideal.log (w (ix1 a)) :=
  (broadcastTo_a1_ab_apply _ hb a b).trans (congrArg Ideal.log (shapeCast_a_a1_apply w hs a 0))

/-- The exponential of a block, read at an index. -/
theorem exp_apply {s : Shape} (v : FVec Ideal s .f32) (i : s.Idx) : exp (F := Ideal) v i = Ideal.exp (v i) := rfl

/-- The biased block: the input block plus the one bias row spread down the rows, at (a, j). -/
theorem biased_apply (x0 : Vec Ideal S20000x8 .f32) (x1 : Vec Ideal S1x8 .f32) (h0 : S20000x8.ShapeCasts S20000x8)
    (h1 : S1x8.ShapeCasts S1x8) (hb : S1x8.Broadcasts S20000x8) (a : Fin 20000) (j : Fin 8) :
    addf (F := Ideal) (φ := .f32) (shapeCast S20000x8 x0 h0) (broadcastTo S20000x8 (shapeCast S1x8 x1 h1) hb) (ix2 a j)
      = biasedRow (m := 20000) (n := 8) x0 x1 a j := by
  rw [shapeCast_self, shapeCast_self]
  show x0 (ix2 a j) + broadcastTo S20000x8 x1 hb (ix2 a j) = x0 (ix2 a j) + x1 (ix2 0 j)
  rw [Cert.LibMatmulPlain.rowBroadcast_apply]

/-- The body's stored value at entry (a, b) of the block: the shifted log-softmax of row a of the block plus the
    bias row, at lane b. -/
theorem pay_apply (x0 : Vec Ideal S20000x8 .f32) (x1 : Vec Ideal S1x8 .f32) (a : Fin 20000) (b : Fin 8) :
    k2_pay1 (F := Ideal) x0 x1 (ix2 a b) = logSoftmaxBias (m := 20000) (n := 8) x0 x1 (ix2 a b) := by
  rw [logSoftmaxBias_apply]
  unfold k2_pay1
  simp only [subf_apply, keep_apply, keep_log_apply, biased_apply]
  have hM := (laneMax_apply _ reduces_S20000x8_S20000 (.inl rfl) rfl a).trans
    (congrArg rowMax (funext fun j =>
      biased_apply x0 x1 shapeCasts_S20000x8_S20000x8 shapeCasts_S1x8_S1x8 broadcasts_S1x8_S20000x8 a j))
  refine congrArg₂ (fun M S : EReal => biasedRow (m := 20000) (n := 8) x0 x1 a b - M - Ideal.log S) hM ?_
  refine (laneSum_apply _ _ _ _ a).trans (Finset.sum_congr rfl fun j _ => ?_)
  simp only [exp_apply, subf_apply, biased_apply, keep_apply]
  exact congrArg (fun M : EReal => Ideal.exp (biasedRow (m := 20000) (n := 8) x0 x1 a j - M)) hM

/-- The log-softmax at an entry depends only on that row of the input and on the bias row: two inputs that agree on a
    row, with bias rows that agree, give the same value along it. -/
theorem logSoftmaxBias_congr {m m' n : Nat} (H : FVec Ideal ⟨2, ![m, n]⟩ .f32) (bias : FVec Ideal ⟨2, ![1, n]⟩ .f32)
    (H' : FVec Ideal ⟨2, ![m', n]⟩ .f32) (bias' : FVec Ideal ⟨2, ![1, n]⟩ .f32) (a : Fin m) (a' : Fin m')
    (hH : ∀ j : Fin n, H (ix2 a j) = H' (ix2 a' j)) (hb : ∀ j : Fin n, bias (ix2 0 j) = bias' (ix2 0 j)) (b : Fin n) :
    logSoftmaxBias H bias (ix2 a b) = logSoftmaxBias H' bias' (ix2 a' b) := by
  have hrow : biasedRow H bias a = biasedRow H' bias' a' := funext fun j => by
    unfold biasedRow
    rw [hH j, hb j]
  rw [logSoftmaxBias_apply, logSoftmaxBias_apply, hrow]

/-! ## The region's windows and what it writes back -/

/-- The printed index maps over the grid: the input and result windows move down the rows with the point, the
    bias window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point t is rows 20000·t … of the input array. -/
theorem in_blk (c : Dev nD) (t : Fin cfg2.N) (a : Fin 20000) (k : Fin 8) (r : Fin 100000)
    (hr : r.val = 20000 * t.val + a.val) :
    (iblk2 V c 0 t : Vec Ideal S20000x8 .f32) (ix2 a k) = inArr V c (ix2 r k) := by
  obtain ⟨e0, e1, -, -, -, -⟩ := idx_facts t
  unfold iblk2
  rw [View.read_apply]
  show V c main_v60 _ = V c main_v60 _
  congr 1
  funext ax
  apply Fin.ext
  match ax with
  | ⟨0, _⟩ => show win2_0.index t (0 : Fin 2) * 20000 + 1 * a.val = r.val; omega
  | ⟨1, _⟩ => show win2_0.index t (1 : Fin 2) * 8 + 1 * k.val = k.val; omega

/-- The bias window's block at every point is the whole bias row. -/
theorem bias_blk (c : Dev nD) (t : Fin cfg2.N) (u : Fin 1) (b : Fin 8) :
    (iblk2 V c 1 t : Vec Ideal S1x8 .f32) (ix2 u b) = biasArr V c (ix2 u b) := by
  obtain ⟨-, -, e2, e3, -, -⟩ := idx_facts t
  unfold iblk2
  rw [View.read_apply]
  show V c main_v61 _ = V c main_v61 _
  congr 1
  funext ax
  apply Fin.ext
  match ax with
  | ⟨0, _⟩ => show win2_1.index t (0 : Fin 2) * 1 + 1 * u.val = u.val; omega
  | ⟨1, _⟩ => show win2_1.index t (1 : Fin 2) * 8 + 1 * b.val = b.val; omega

/-- What point t writes back is block t of the log-softmax of the input array plus the bias row. -/
theorem flushed_eq (c : Dev nD) (t : Fin cfg2.N) :
    (dat2 V c).flushed 2 t
      = ((cfg2.win 2).blk t).view.read (Elt Ideal) (logSoftmaxBias (inArr V c) (biasArr V c)) := by
  obtain ⟨-, -, -, -, e4, e5⟩ := idx_facts t
  have ht : t.val < 5 := by have h1 := t.isLt; have hN : cfg2.N = 5 := N_2; omega
  show (cfg2.win 2).cut (grid2.coords t) ((dat2 V c).after 2 t) = _
  rw [after2_2]
  unfold out2_2
  rw [View.canon_unit_zero hz]
  simp only [View.ld_unit_zero (S := S20000x8) hz, View.ld_unit_zero (S := S1x8) hz]
  funext j
  obtain ⟨a, b, rfl⟩ : ∃ (a : Fin 20000) (b : Fin 8), j = ix2 a b := ⟨j 0, j 1, eq_ix2 j⟩
  refine (pay_apply _ _ a b).trans ?_
  rw [View.read_apply]
  have hrow : 20000 * t.val + a.val < 100000 := by have := a.isLt; omega
  have hemb : ((cfg2.win 2).blk t).view.emb (ix2 a b) = ix2 (⟨20000 * t.val + a.val, hrow⟩ : Fin 100000) b := by
    funext ax
    apply Fin.ext
    match ax with
    | ⟨0, _⟩ => show win2_2.index t (0 : Fin 2) * 20000 + 1 * a.val = 20000 * t.val + a.val; omega
    | ⟨1, _⟩ => show win2_2.index t (1 : Fin 2) * 8 + 1 * b.val = b.val; omega
  rw [hemb]
  exact logSoftmaxBias_congr _ _ (inArr V c) (biasArr V c) a ⟨20000 * t.val + a.val, hrow⟩
    (fun j => in_blk V c t a j ⟨20000 * t.val + a.val, hrow⟩ rfl) (fun j => bias_blk V c t 0 j) b

/-- An index of the result array is in point t's block iff each coordinate is in the block's range. -/
theorem mem_blk (t : Fin cfg2.N) (i : S100000x8.Idx) :
    i ∈ ((cfg2.win 2).blk t).view.set ↔ ∀ a : Fin 2, win2_2.index t a * S20000x8.size a ≤ (i a).val ∧ (i a).val < win2_2.index t a * S20000x8.size a + S20000x8.size a := by
  show i ∈ ((View.whole main_v62).slice (win2_2.rect t)).set ↔ _
  rw [View.set_slice_whole, Rect.mem_set_unit]
  exact Iff.rfl

/-- The array after the region: the row-wise log-softmax of the input array plus the bias row, both as the region
    was entered with them. -/
theorem final (c : Dev nD) : (dat2 V c).arrAt 2 cfg2.N = logSoftmaxBias (inArr V c) (biasArr V c) :=
  (dat2 V c).arrAt_eq_of_cover 2 (logSoftmaxBias (inArr V c) (biasArr V c)) (fun t _ => flushed_eq V c t) fun i => by
    have hi0 : (i 0).val < 100000 := (i 0).isLt
    have hi1 : (i 1).val < 8 := (i 1).isLt
    have hN : cfg2.N = 5 := N_2
    refine ⟨⟨(i 0).val / 20000, by rw [hN]; omega⟩, flush2_2 _, ?_⟩
    rw [mem_blk]
    obtain ⟨-, -, -, -, e4, e5⟩ := idx_facts ⟨(i 0).val / 20000, by rw [hN]; omega⟩
    intro a
    match a with
    | ⟨0, _⟩ => show win2_2.index _ (0 : Fin 2) * 20000 ≤ (i 0).val ∧ (i 0).val < win2_2.index _ (0 : Fin 2) * 20000 + 20000; rw [e4]; show (i 0).val / 20000 * 20000 ≤ (i 0).val ∧ (i 0).val < (i 0).val / 20000 * 20000 + 20000; omega
    | ⟨1, _⟩ => show win2_2.index _ (1 : Fin 2) * 8 ≤ (i 1).val ∧ (i 1).val < win2_2.index _ (1 : Fin 2) * 8 + 8; rw [e5]; omega

end Cert.KernelIdeal.Region2

end
-- ==== Proof.RefStages.lean ====
/-
  The reference's three dense stages are the specification's three maps.

  Between its gathers and scatter-adds the reference program computes, over the extended reals,
  * the matrix product x · W1 (one contraction);
  * (max (h + b1) 0) · W2, the bias b1 first laid out as one row and then repeated down the rows;
  * the row-wise log-softmax of h + b2 in its shifted form: the shift is the larger of −∞ and the row's
    maximum taken from −∞, which is the row's maximum; the normaliser is 0 plus the row's sum of exponentials.
  Each is read entry by entry and identified with `matProd`, `hiddenLayer`, `logSoftmaxBias`. The two
  scatter-add results the later stages start from stay opaque.
-/
import proofs.«156561_j57312043598543_1_alg».proof.Proof.RefRead
import proofs.«156561_j57312043598543_1_alg».proof.Proof.Spec
import Idealize.ShloMosaic.Lib.ValueIdx
import Idealize.ShloMosaic.Lib.Pipeline.Value
import Idealize.ShloMosaic.PureOps.Ideal.Laws
noncomputable section
open scoped BigOperators
namespace Cert.ReferenceIdeal.Stages
open Cert.ReferenceIdeal Cert.ReferenceIdeal.ReadP Cert.GraphConv Idealize.ShloMosaic Idealize.ShloMosaic.ValueIdx
variable (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x8, .f32⟩ : BufTy).Contents (Elt Ideal)) (x6 : (⟨S8, .f32⟩ : BufTy).Contents (Elt Ideal))

/-! ## Constants and indices -/

/-- The bit pattern of −∞ is the bottom of the extended reals. -/
theorem ofBits_neg_inf_f32 : Ideal.ofBits .f32 0xFF800000#32 = ⊥ := by simp [Ideal.ofBits, Ideal.ieee]

/-- Inserting the column k into the row index a gives the entry (a, k). -/
theorem lift_row (h : Shape.Reduces S100000x8 [1] S100000) (a : Fin 100000) (k : Fin 8) :
    h.lift (ix1 a) k = ix2 a k :=
  funext fun d => Fin.ext (by match d with | ⟨0, _⟩ => rfl | ⟨1, _⟩ => rfl)

/-! ## %32: the matrix product -/

/-- %32 = dot_general(x, W1) is the matrix product. -/
theorem stage_v32 : val_main_v32 (F := Ideal) x0 x3 = matProd x0 x3 := by
  funext i
  obtain ⟨a, b, rfl⟩ : ∃ (a : Fin 100000) (b : Fin 16), i = ix2 a b := ⟨i 0, i 1, eq_ix2 i⟩
  rw [val_main_v32_apply, matProd_apply]
  refine Finset.sum_congr rfl fun k _ => ?_
  have el : lidx_main_v32 (ix2 a b) k = ix2 a k :=
    funext fun d => Fin.ext (by match d with | ⟨0, _⟩ => rfl | ⟨1, _⟩ => rfl)
  have er : ridx_main_v32 (ix2 a b) k = ix2 k b :=
    funext fun d => Fin.ext (by match d with | ⟨0, _⟩ => rfl | ⟨1, _⟩ => rfl)
  rw [el, er]

/-! ## %50: the hidden layer -/

/-- %49 = max (%45 + b1 repeated down the rows) 0, read at (a, c). -/
theorem v49_apply (bias : FVec Ideal ⟨2, ![1, 16]⟩ .f32) (hb : ∀ k : Fin 16, bias (ix2 0 k) = x4 (ix1 k))
    (a : Fin 100000) (c : Fin 16) :
    val_main_v49 (F := Ideal) x0 x1 x2 x3 x4 (ix2 a c)
      = max (val_main_v45 (F := Ideal) x0 x1 x2 x3 (ix2 a c) + bias (ix2 0 c)) 0 := by
  rw [val_main_v49_apply, val_main_v48_apply, val_main_v47_apply, val_main_v46_apply, val_main_call1_v0_apply,
    val_main_call1_cst_apply]
  have e : idx_main_v46 (idx_main_v47 (ix2 a c)) = ix1 c :=
    funext fun d => Fin.ext (by match d with | ⟨0, _⟩ => rfl)
  rw [e, ← hb c]
  generalize val_main_v45 (F := Ideal) x0 x1 x2 x3 = H
  simp only [Ideal.maximumf_def, Ideal.addf_def, Ideal.ofBits_def, Ideal.ofBits_zero_f32]

/-- %50 = dot_general(relu(%45 + broadcast b1), W2) is the hidden layer of %45, for ANY one-row array `bias` that holds b1. -/
theorem stage_v50 (bias : FVec Ideal ⟨2, ![1, 16]⟩ .f32) (hb : ∀ k : Fin 16, bias (ix2 0 k) = x4 (ix1 k)) :
    val_main_v50 (F := Ideal) x0 x1 x2 x3 x4 x5 = hiddenLayer (val_main_v45 (F := Ideal) x0 x1 x2 x3) bias x5 := by
  funext i
  obtain ⟨a, b, rfl⟩ : ∃ (a : Fin 100000) (b : Fin 8), i = ix2 a b := ⟨i 0, i 1, eq_ix2 i⟩
  rw [val_main_v50_apply, hiddenLayer_apply]
  refine Finset.sum_congr rfl fun k _ => ?_
  have el : lidx_main_v50 (ix2 a b) k = ix2 a k :=
    funext fun d => Fin.ext (by match d with | ⟨0, _⟩ => rfl | ⟨1, _⟩ => rfl)
  have er : ridx_main_v50 (ix2 a b) k = ix2 k b :=
    funext fun d => Fin.ext (by match d with | ⟨0, _⟩ => rfl | ⟨1, _⟩ => rfl)
  rw [el, er, v49_apply x0 x1 x2 x3 x4 bias hb a k]

/-! ## %67: the row-wise log-softmax -/

/-- %66 = %63 + b2 repeated down the rows, read at (a, j): row a of %63 + bias at column j. -/
theorem v66_apply (bias : FVec Ideal ⟨2, ![1, 8]⟩ .f32) (hb : ∀ k : Fin 8, bias (ix2 0 k) = x6 (ix1 k))
    (a : Fin 100000) (j : Fin 8) :
    val_main_v66 (F := Ideal) x0 x1 x2 x3 x4 x5 x6 (ix2 a j)
      = biasedRow (val_main_v63 (F := Ideal) x0 x1 x2 x3 x4 x5) bias a j := by
  rw [val_main_v66_apply, val_main_v65_apply, val_main_v64_apply]
  have e : idx_main_v64 (idx_main_v65 (ix2 a j)) = ix1 j :=
    funext fun d => Fin.ext (by match d with | ⟨0, _⟩ => rfl)
  rw [e, ← hb j, Ideal.addf_def]
  generalize val_main_v63 (F := Ideal) x0 x1 x2 x3 x4 x5 = H
  rfl

/-- The maximum over axis 1 of a 100000 × 8 array, from −∞, at row a: the row's maximum. -/
theorem reduce_max_row (V : FVec Ideal ⟨2, ![100000, 8]⟩ .f32) (init : FVec Ideal ⟨0, ![]⟩ .f32)
    (h' : S100000x8.ReducesTo [1] S100000) (hu : 0 < S_.numel) (a : Fin 100000)
    (hi : init (Shape.Idx.first hu) = ⊥) :
    Host.reduce (FloatOps.maximumf (F := Ideal) (φ := .f32)) V init h' hu (ix1 a)
      = rowMax fun j : Fin 8 => V (ix2 a j) := by
  have h : Shape.Reduces S100000x8 [1] S100000 := by decide
  unfold rowMax
  rw [Host.reduce_eq_fold_single _ V init h' h hu (ix1 a), hi]
  exact Finset.fold_congr fun k _ => congrArg V (lift_row h a k)

/-- The shift: the larger of −∞ and the maximum over row a of %66 taken from −∞ is the row's maximum. -/
theorem shift_apply (bias : FVec Ideal ⟨2, ![1, 8]⟩ .f32) (hb : ∀ k : Fin 8, bias (ix2 0 k) = x6 (ix1 k))
    (a : Fin 100000) :
    val_main_call2_v2 (F := Ideal) x0 x1 x2 x3 x4 x5 x6 (ix1 a)
      = rowMax (biasedRow (val_main_v63 (F := Ideal) x0 x1 x2 x3 x4 x5) bias a) := by
  have hv : ∀ k : Fin 8, val_main_v66 (F := Ideal) x0 x1 x2 x3 x4 x5 x6 (ix2 a k)
      = biasedRow (val_main_v63 (F := Ideal) x0 x1 x2 x3 x4 x5) bias a k :=
    fun k => v66_apply x0 x1 x2 x3 x4 x5 x6 bias hb a k
  rw [val_main_call2_v2_apply, val_main_call2_v1_apply, val_main_call2_cst_0_apply]
  unfold val_main_call2_v0
  generalize val_main_v66 (F := Ideal) x0 x1 x2 x3 x4 x5 x6 = V at hv ⊢
  generalize val_main_v63 (F := Ideal) x0 x1 x2 x3 x4 x5 = H at hv ⊢
  rw [reduce_max_row V (val_main_call2_cst (F := Ideal)) _ _ a ((val_main_call2_cst_apply _).trans ofBits_neg_inf_f32), Ideal.maximumf_def,
    Ideal.ofBits_def, ofBits_neg_inf_f32, bot_sup_eq]
  exact congrArg rowMax (funext hv)

/-- %5 = %66 − the shift repeated along the row, read at (a, j). -/
theorem v5_apply (bias : FVec Ideal ⟨2, ![1, 8]⟩ .f32) (hb : ∀ k : Fin 8, bias (ix2 0 k) = x6 (ix1 k))
    (a : Fin 100000) (j : Fin 8) :
    val_main_call2_v5 (F := Ideal) x0 x1 x2 x3 x4 x5 x6 (ix2 a j)
      = biasedRow (val_main_v63 (F := Ideal) x0 x1 x2 x3 x4 x5) bias a j
          - rowMax (biasedRow (val_main_v63 (F := Ideal) x0 x1 x2 x3 x4 x5) bias a) := by
  rw [val_main_call2_v5_apply, v66_apply x0 x1 x2 x3 x4 x5 x6 bias hb a j, val_main_call2_v4_apply,
    val_main_call2_v3_apply]
  have e : idx_main_call2_v3 (idx_main_call2_v4 (ix2 a j)) = ix1 a :=
    funext fun d => Fin.ext (by match d with | ⟨0, _⟩ => rfl)
  rw [e, shift_apply x0 x1 x2 x3 x4 x5 x6 bias hb a, Ideal.subf_def]

/-- %10 = log (0 + the row's sum of exp %5) repeated along the row, read at (a, b). -/
theorem v10_apply (bias : FVec Ideal ⟨2, ![1, 8]⟩ .f32) (hb : ∀ k : Fin 8, bias (ix2 0 k) = x6 (ix1 k))
    (a : Fin 100000) (b : Fin 8) :
    val_main_call2_v10 (F := Ideal) x0 x1 x2 x3 x4 x5 x6 (ix2 a b)
      = Ideal.log (∑ j : Fin 8, Ideal.exp
          (biasedRow (val_main_v63 (F := Ideal) x0 x1 x2 x3 x4 x5) bias a j
            - rowMax (biasedRow (val_main_v63 (F := Ideal) x0 x1 x2 x3 x4 x5) bias a))) := by
  rw [val_main_call2_v10_apply, val_main_call2_v9_apply, val_main_call2_v8_apply]
  have e : idx_main_call2_v8 (idx_main_call2_v10 (ix2 a b)) = ix1 a :=
    funext fun d => Fin.ext (by match d with | ⟨0, _⟩ => rfl)
  rw [e, val_main_call2_v7_apply, val_main_call2_cst_1_apply, Ideal.hostUnary_log_def, Ideal.ofBits_def,
    Ideal.ofBits_zero_f32, zero_add]
  refine congrArg Ideal.log (Finset.sum_congr rfl fun k _ => ?_)
  have ek : idx_main_call2_v7 (ix1 a) k = ix2 a k :=
    funext fun d => Fin.ext (by match d with | ⟨0, _⟩ => rfl | ⟨1, _⟩ => rfl)
  rw [ek, val_main_call2_v6_apply, v5_apply x0 x1 x2 x3 x4 x5 x6 bias hb a k, Ideal.hostUnary_exp_def]

/-- %67 = log_softmax(%63 + broadcast b2) is the row-wise log-softmax of %63 + bias, for ANY one-row array `bias` that holds b2. -/
theorem stage_v67 (bias : FVec Ideal ⟨2, ![1, 8]⟩ .f32) (hb : ∀ k : Fin 8, bias (ix2 0 k) = x6 (ix1 k)) :
    val_main_v67 (F := Ideal) x0 x1 x2 x3 x4 x5 x6 = logSoftmaxBias (val_main_v63 (F := Ideal) x0 x1 x2 x3 x4 x5) bias := by
  funext i
  obtain ⟨a, b, rfl⟩ : ∃ (a : Fin 100000) (b : Fin 8), i = ix2 a b := ⟨i 0, i 1, eq_ix2 i⟩
  rw [val_main_v67_apply, v5_apply x0 x1 x2 x3 x4 x5 x6 bias hb a b, v10_apply x0 x1 x2 x3 x4 x5 x6 bias hb a b,
    logSoftmaxBias_apply, Ideal.subf_def]

end Cert.ReferenceIdeal.Stages

end
-- ==== Proof.Chain.lean ====
/-
  The kernel program's result, boundary by boundary, is the reference's last stage.
  @main of the kernel program is five host stretches and three kernel regions. Walking its buffer contents from the
  launch: before the first region the edge lists and the edge norm are the reference's stages; the first region
  leaves the matrix product, the reference's first dot_general; the next stretch aggregates it along the edges
  exactly as the reference does; the second region leaves the hidden layer of that aggregate, the reference's bias,
  positive part and second dot_general; the next stretch aggregates again; the third region leaves the row-wise
  log-softmax, the reference's last stage. So the result array ends at the reference's composed term of the seven
  argument arrays, at the ideal values.
-/
import proofs.«156561_j57312043598543_1_alg».proof.Proof.Gen.KernelIdeal.Frame
import proofs.«156561_j57312043598543_1_alg».proof.Proof.HostChain
import proofs.«156561_j57312043598543_1_alg».proof.Proof.Region0Value
import proofs.«156561_j57312043598543_1_alg».proof.Proof.Region1Value
import proofs.«156561_j57312043598543_1_alg».proof.Proof.Region2Value
import proofs.«156561_j57312043598543_1_alg».proof.Proof.RefStages
import Idealize.ShloMosaic.Lib.ValueLayout

set_option maxRecDepth 65536

noncomputable section

namespace Cert.KernelIdeal.Chain

open Cert.KernelIdeal Cert.KernelIdeal.Gen Cert.GraphConv
open Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg)

/-! ## The seven argument arrays as launched -/

abbrev A0 (c : Dev nD) : (⟨S100000x512, .f32⟩ : BufTy).Contents (Elt Ideal) := m ((c : Thread nD τ).loc main_arg0)
abbrev A1 (c : Dev nD) : (⟨S2x3200000, .i32⟩ : BufTy).Contents (Elt Ideal) := m ((c : Thread nD τ).loc main_arg1)
abbrev A2 (c : Dev nD) : (⟨S3200000, .f32⟩ : BufTy).Contents (Elt Ideal) := m ((c : Thread nD τ).loc main_arg2)
abbrev A3 (c : Dev nD) : (⟨S512x16, .f32⟩ : BufTy).Contents (Elt Ideal) := m ((c : Thread nD τ).loc main_arg3)
abbrev A4 (c : Dev nD) : (⟨S16, .f32⟩ : BufTy).Contents (Elt Ideal) := m ((c : Thread nD τ).loc main_arg4)
abbrev A5 (c : Dev nD) : (⟨S16x8, .f32⟩ : BufTy).Contents (Elt Ideal) := m ((c : Thread nD τ).loc main_arg5)
abbrev A6 (c : Dev nD) : (⟨S8, .f32⟩ : BufTy).Contents (Elt Ideal) := m ((c : Thread nD τ).loc main_arg6)

/-! ## At the first region's entry -/

theorem W3_src (c : Dev nD) : W3 m ρ c (Proc.devRef .tc main_v5) = val_main_v5 (F := Ideal) (A1 m c) :=
  HostChain.pre_src (W0 m ρ c)
theorem W3_dst (c : Dev nD) : W3 m ρ c (Proc.devRef .tc main_v6) = val_main_v6 (F := Ideal) (A1 m c) :=
  HostChain.pre_dst (W0 m ρ c)
theorem W3_norm (c : Dev nD) : W3 m ρ c (Proc.devRef .tc main_v31) = val_main_v31 (F := Ideal) (A1 m c) (A2 m c) :=
  HostChain.pre_norm (W0 m ρ c)
theorem W3_arg0 (c : Dev nD) : W3 m ρ c (Proc.devRef .tc main_arg0) = A0 m c := HostChain.pre_arg0 (W0 m ρ c)
theorem W3_arg3 (c : Dev nD) : W3 m ρ c (Proc.devRef .tc main_arg3) = A3 m c := HostChain.pre_arg3 (W0 m ρ c)
theorem W3_arg4 (c : Dev nD) : W3 m ρ c (Proc.devRef .tc main_arg4) = A4 m c := HostChain.pre_arg4 (W0 m ρ c)
theorem W3_arg5 (c : Dev nD) : W3 m ρ c (Proc.devRef .tc main_arg5) = A5 m c := HostChain.pre_arg5 (W0 m ρ c)
theorem W3_arg6 (c : Dev nD) : W3 m ρ c (Proc.devRef .tc main_arg6) = A6 m c := HostChain.pre_arg6 (W0 m ρ c)

/-! ## At the first region's exit -/

/-- The first region leaves the matrix product: the reference's first dot_general. -/
theorem W4_prod (c : Dev nD) : W4 m ρ c (Proc.devRef .tc main_v32) = val_main_v32 (F := Ideal) (A0 m c) (A3 m c) := by
  refine (W4_arr m ρ c 2).trans ?_
  rw [Region0.final (V3 m ρ) c]
  show matProd (W3 m ρ c (Proc.devRef .tc main_arg0)) (W3 m ρ c (Proc.devRef .tc main_arg3)) = _
  rw [W3_arg0, W3_arg3]
  exact (Cert.ReferenceIdeal.Stages.stage_v32 (A0 m c) (A3 m c)).symm

theorem W4_src (c : Dev nD) : W4 m ρ c (Proc.devRef .tc main_v5) = val_main_v5 (F := Ideal) (A1 m c) :=
  (W4_of_ne m ρ c main_v5 (by decide)).trans (W3_src m ρ c)
theorem W4_dst (c : Dev nD) : W4 m ρ c (Proc.devRef .tc main_v6) = val_main_v6 (F := Ideal) (A1 m c) :=
  (W4_of_ne m ρ c main_v6 (by decide)).trans (W3_dst m ρ c)
theorem W4_norm (c : Dev nD) : W4 m ρ c (Proc.devRef .tc main_v31) = val_main_v31 (F := Ideal) (A1 m c) (A2 m c) :=
  (W4_of_ne m ρ c main_v31 (by decide)).trans (W3_norm m ρ c)
theorem W4_arg4 (c : Dev nD) : W4 m ρ c (Proc.devRef .tc main_arg4) = A4 m c :=
  (W4_of_ne m ρ c main_arg4 (by decide)).trans (W3_arg4 m ρ c)
theorem W4_arg5 (c : Dev nD) : W4 m ρ c (Proc.devRef .tc main_arg5) = A5 m c :=
  (W4_of_ne m ρ c main_arg5 (by decide)).trans (W3_arg5 m ρ c)
theorem W4_arg6 (c : Dev nD) : W4 m ρ c (Proc.devRef .tc main_arg6) = A6 m c :=
  (W4_of_ne m ρ c main_arg6 (by decide)).trans (W3_arg6 m ρ c)

/-! ## At the second region's entry -/

/-- The first layer's aggregate along the edges: the reference's first scatter-add. -/
theorem W5_agg (c : Dev nD) : W5 m ρ c (Proc.devRef .tc main_v45) = val_main_v45 (F := Ideal) (A0 m c) (A1 m c) (A2 m c) (A3 m c) :=
  HostChain.mid1_agg (W4 m ρ c) _ _ _ _ (W4_src m ρ c) (W4_dst m ρ c) (W4_norm m ρ c) (W4_prod m ρ c)
theorem W5_bias (c : Dev nD) : W5 m ρ c (Proc.devRef .tc main_v46) = shapeCast S1x16 (A4 m c) shapeCasts_S16_S1x16 :=
  (HostChain.mid1_bias (W4 m ρ c)).trans (by rw [W4_arg4])
theorem W5_src (c : Dev nD) : W5 m ρ c (Proc.devRef .tc main_v5) = val_main_v5 (F := Ideal) (A1 m c) :=
  (HostChain.mid1_src (W4 m ρ c)).trans (W4_src m ρ c)
theorem W5_dst (c : Dev nD) : W5 m ρ c (Proc.devRef .tc main_v6) = val_main_v6 (F := Ideal) (A1 m c) :=
  (HostChain.mid1_dst (W4 m ρ c)).trans (W4_dst m ρ c)
theorem W5_norm (c : Dev nD) : W5 m ρ c (Proc.devRef .tc main_v31) = val_main_v31 (F := Ideal) (A1 m c) (A2 m c) :=
  (HostChain.mid1_norm (W4 m ρ c)).trans (W4_norm m ρ c)
theorem W5_arg5 (c : Dev nD) : W5 m ρ c (Proc.devRef .tc main_arg5) = A5 m c :=
  (HostChain.mid1_arg5 (W4 m ρ c)).trans (W4_arg5 m ρ c)
theorem W5_arg6 (c : Dev nD) : W5 m ρ c (Proc.devRef .tc main_arg6) = A6 m c :=
  (HostChain.mid1_arg6 (W4 m ρ c)).trans (W4_arg6 m ρ c)

/-! ## At the second region's exit -/

/-- The second region leaves the hidden layer of the aggregate: the reference's bias, positive part and second
    dot_general. The one-row bias array is the first bias laid out as a row. -/
theorem W6_hidden (c : Dev nD) : W6 m ρ c (Proc.devRef .tc main_v47)
    = val_main_v50 (F := Ideal) (A0 m c) (A1 m c) (A2 m c) (A3 m c) (A4 m c) (A5 m c) := by
  refine (W6_arr m ρ c 3).trans ?_
  rw [Region1.final (V5 m ρ) c]
  show hiddenLayer (W5 m ρ c (Proc.devRef .tc main_v45)) (W5 m ρ c (Proc.devRef .tc main_v46)) (W5 m ρ c (Proc.devRef .tc main_arg5)) = _
  rw [W5_agg, W5_bias, W5_arg5]
  exact (Cert.ReferenceIdeal.Stages.stage_v50 (A0 m c) (A1 m c) (A2 m c) (A3 m c) (A4 m c) (A5 m c)
    (shapeCast S1x16 (A4 m c) shapeCasts_S16_S1x16) (fun k => shapeCast_a_1a_apply _ _ 0 k)).symm

theorem W6_src (c : Dev nD) : W6 m ρ c (Proc.devRef .tc main_v5) = val_main_v5 (F := Ideal) (A1 m c) :=
  (W6_of_ne m ρ c main_v5 (by decide)).trans (W5_src m ρ c)
theorem W6_dst (c : Dev nD) : W6 m ρ c (Proc.devRef .tc main_v6) = val_main_v6 (F := Ideal) (A1 m c) :=
  (W6_of_ne m ρ c main_v6 (by decide)).trans (W5_dst m ρ c)
theorem W6_norm (c : Dev nD) : W6 m ρ c (Proc.devRef .tc main_v31) = val_main_v31 (F := Ideal) (A1 m c) (A2 m c) :=
  (W6_of_ne m ρ c main_v31 (by decide)).trans (W5_norm m ρ c)
theorem W6_arg6 (c : Dev nD) : W6 m ρ c (Proc.devRef .tc main_arg6) = A6 m c :=
  (W6_of_ne m ρ c main_arg6 (by decide)).trans (W5_arg6 m ρ c)

/-! ## At the third region's entry -/

/-- The second layer's aggregate along the edges: the reference's second scatter-add. -/
theorem W7_agg (c : Dev nD) : W7 m ρ c (Proc.devRef .tc main_v60)
    = val_main_v63 (F := Ideal) (A0 m c) (A1 m c) (A2 m c) (A3 m c) (A4 m c) (A5 m c) :=
  HostChain.mid2_agg (W6 m ρ c) _ _ _ _ _ _ (W6_src m ρ c) (W6_dst m ρ c) (W6_norm m ρ c) (W6_hidden m ρ c)
theorem W7_bias (c : Dev nD) : W7 m ρ c (Proc.devRef .tc main_v61) = shapeCast S1x8 (A6 m c) shapeCasts_S8_S1x8 :=
  (HostChain.mid2_bias (W6 m ρ c)).trans (by rw [W6_arg6])

/-! ## At the return -/

/-- The result array after the run is the reference's last stage of the seven argument arrays. -/
theorem result_eq (c : Dev nD) : W8 m ρ c (Proc.devRef .tc main_v62)
    = val_main_v67 (F := Ideal) (A0 m c) (A1 m c) (A2 m c) (A3 m c) (A4 m c) (A5 m c) (A6 m c) := by
  refine (W8_arr m ρ c 2).trans ?_
  rw [Region2.final (V7 m ρ) c]
  show logSoftmaxBias (W7 m ρ c (Proc.devRef .tc main_v60)) (W7 m ρ c (Proc.devRef .tc main_v61)) = _
  rw [W7_agg, W7_bias]
  exact (Cert.ReferenceIdeal.Stages.stage_v67 (A0 m c) (A1 m c) (A2 m c) (A3 m c) (A4 m c) (A5 m c) (A6 m c)
    (shapeCast S1x8 (A6 m c) shapeCasts_S8_S1x8) (fun k => shapeCast_a_1a_apply _ _ 0 k)).symm

end Cert.KernelIdeal.Chain

end
-- ==== Proof.lean ====
/-
  The proof of `Cert.Claim` for a two-layer graph convolution with a log-softmax head: three kernel regions (the
  input projection x·W₁; bias, positive part and the second projection; bias and row-wise log-softmax) among the
  host's sparse steps (degree normalisation, gather along edges, scatter-add into nodes), against the plain
  reference that computes the same layers with two dot_generals.

  The three frames: the two kernel programs' are the generated frame certificates; the reference has no kernel
  and its frame is its run with the result dropped.
  `preserves`: the ideal pass rewrote nothing, the conjunct is `True`.
  `algebraic`: at the ideal values the narrowing of the matmul operands is the identity and a product into the zero
  accumulator is the host's dot_general, so each kernel region leaves exactly the reference's dense stage of the
  arrays it was entered with (Proof/Region0Value.lean, Region1Value.lean, Region2Value.lean against
  Proof/RefStages.lean, over the shared specification Proof/Spec.lean); the host stretches between the regions are
  the reference's own operations in the same order and are compared as terms, never opened (Proof/HostChain.lean);
  Proof/Chain.lean walks the buffer contents from the launch to the return, and both runs end at one term of the
  seven argument arrays. No law of the extended reals beyond `max ⊥ x = x` and `0 + x = x` is used, so the
  precondition (finite inputs) is never opened.
-/
import proofs.«156561_j57312043598543_1_alg».proof.Defs
import proofs.«156561_j57312043598543_1_alg».proof.Proof.Gen.Kernel
import proofs.«156561_j57312043598543_1_alg».proof.Proof.Gen.Kernel.Frame
import proofs.«156561_j57312043598543_1_alg».proof.Proof.Gen.KernelIdeal
import proofs.«156561_j57312043598543_1_alg».proof.Proof.Gen.KernelIdeal.Frame
import proofs.«156561_j57312043598543_1_alg».proof.Proof.Gen.ReferenceIdeal
import proofs.«156561_j57312043598543_1_alg».proof.Proof.Gen.Pre_finite_inputs
import proofs.«156561_j57312043598543_1_alg».proof.Proof.KernelRun
import proofs.«156561_j57312043598543_1_alg».proof.Proof.RefRun
import proofs.«156561_j57312043598543_1_alg».proof.Proof.RefRead
import proofs.«156561_j57312043598543_1_alg».proof.Proof.RefReadEq
import proofs.«156561_j57312043598543_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at the reference's last stage of the argument arrays: the kernel program's by
    the walk through its regions and host stretches, the reference's by its run read stage by stage. -/
theorem algebraic : Cert.algebraic_KernelIdeal_ReferenceIdeal := by
  intro m ρ m' ρ' _ hagree
  refine ⟨fun c => Cert.ReferenceIdeal.ReadP.val_main_v67 (F := Ideal) (Cert.KernelIdeal.Chain.A0 m c)
    (Cert.KernelIdeal.Chain.A1 m c) (Cert.KernelIdeal.Chain.A2 m c) (Cert.KernelIdeal.Chain.A3 m c)
    (Cert.KernelIdeal.Chain.A4 m c) (Cert.KernelIdeal.Chain.A5 m c) (Cert.KernelIdeal.Chain.A6 m c), ?_, ?_⟩
  · exact (θ_run Cert.KernelIdeal.defs _ _).mono
      (fun _ h c => ⟨(h c).1.trans (Cert.KernelIdeal.Chain.result_eq m ρ c), (h c).2⟩)
      (Cert.KernelIdeal.ValueRun.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
